-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S131072x256 .f32) (main_arg1 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S131072x256 : Shape := ⟨2, ![131072, 256]⟩
abbrev S256x256 : Shape := ⟨2, ![256, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 3
  | .vmem => 5
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x256_S256x256_0_0 : ∀ a, (![0, 0] : Fin 2 → Nat) a + S256x256.size a ≤ S256x256.size a
  h_S256x256 : 0 < S256x256.numel
  natLt_1_32 : 1 < 32
  inb_S4096x256_S4096x256_0_0 : ∀ a, (![0, 0] : Fin 2 → Nat) a + S4096x256.size a ≤ S4096x256.size a
  h_S4096x256 : 0 < S4096x256.numel
  transposes_S256x256_p1_0_S256x256 : S256x256.Transposes [1, 0] S256x256
  reduces_S4096x256_S4096 : S4096x256.Reduces [1] S4096
  shapeCasts_S4096_S4096x1 : S4096.ShapeCasts S4096x1
  broadcasts_S4096x1_S4096x256 : S4096x1.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S131072x256.size a
  hwx0_2 : ∀ i : grid0.Coords, EltTy.bits .f32 = 32 ∨ (Rect.block (s := S131072x256) S4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S131072 : Shape := ⟨1, ![131072]⟩
abbrev S131072x1 : Shape := ⟨2, ![131072, 1]⟩

abbrev nBuf : Space → Nat
  | .hbm => 15
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S_, .f32⟩
  | .hbm, ⟨3, _⟩ => ⟨S256x256, .f32⟩
  | .hbm, ⟨4, _⟩ => ⟨S256x256, .i1⟩
  | .hbm, ⟨5, _⟩ => ⟨S256x256, .f32⟩
  | .hbm, ⟨6, _⟩ => ⟨S131072x256, .f32⟩
  | .hbm, ⟨7, _⟩ => ⟨S_, .f32⟩
  | .hbm, ⟨8, _⟩ => ⟨S131072, .f32⟩
  | .hbm, ⟨9, _⟩ => ⟨S131072x1, .f32⟩
  | .hbm, ⟨10, _⟩ => ⟨S_, .f32⟩
  | .hbm, ⟨11, _⟩ => ⟨S131072x1, .f32⟩
  | .hbm, ⟨12, _⟩ => ⟨S131072x1, .f32⟩
  | .hbm, ⟨13, _⟩ => ⟨S131072x256, .f32⟩
  | .hbm, ⟨14, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.Spec.lean ====
/-
  The function both programs compute, stated once over the argument arrays as extended reals.

  A weight passes the synaptic gate when it exceeds the threshold word (the f32 nearest 0.8): the gate is 1 there and
  0 elsewhere. Row `b` of the gated linear map is `lin x w b o = ∑ k, x[b,k] · gate w[o,k]`, and the result subtracts
  from each entry of a row the row's mean over its 256 outputs: `lin x w b o − (∑ o', lin x w b o') / 256`.

  The two programs spell the gate differently — one widens the comparison bit to a 32-bit word and converts it as a
  signed integer, the other converts the bit as an unsigned integer — and the two spellings agree on both values of a
  bit (`gate_signed`).
-/
import Idealize.ShloMosaic.PureOps.Ideal
import Idealize.ShloMosaic.PureOps.Ideal.Laws
import Idealize.ShloMosaic.Lib.ValueIdx

noncomputable section

namespace Cert.GatedLinear

open Idealize.ShloMosaic Idealize.ShloMosaic.ValueIdx

/-- The batch of rows and the square weight matrix. -/
abbrev SRows : Shape := ⟨2, ![131072, 256]⟩
abbrev SWeights : Shape := ⟨2, ![256, 256]⟩

/-- The gate of one weight: the comparison bit `w > threshold`, read as the number 0 or 1. -/
def gate (w : EReal) : EReal :=
  FloatOps.uitofp (F := Ideal) .f32 (FloatOps.cmpf (F := Ideal) (φ := .f32) .ogt w (Ideal.ofBits .f32 0x3F4CCCCD#32))

/-- A bit widened with zeros to 32 bits and read signed is the bit read unsigned: both are 0 or 1. -/
theorem bit_widened_signed (b : BitVec 1) : ((b.setWidth 32).toInt : ℝ) = (b.toNat : ℝ) := by
  have h : ∀ b : BitVec 1, (b.setWidth 32).toInt = (b.toNat : Int) := by decide
  rw [h b]; simp

/-- The gate spelt through a widened bit converted as a signed word. -/
theorem gate_signed (w : EReal) :
    FloatOps.sitofp (F := Ideal) .f32
        ((FloatOps.cmpf (F := Ideal) (φ := .f32) .ogt w (Ideal.ofBits .f32 0x3F4CCCCD#32)).setWidth 32) = gate w := by
  show (((_ : BitVec 32).toInt : ℝ) : EReal) = (((_ : BitVec 1).toNat : ℝ) : EReal)
  rw [bit_widened_signed]

/-- Entry `(b, o)` of the gated linear map: row `b` of `x` against the gated row `o` of `w`. -/
def lin (x : SRows.Idx → EReal) (w : SWeights.Idx → EReal) (b : Fin 131072) (o : Fin 256) : EReal :=
  ∑ k : Fin 256, x (ix2 b k) * gate (w (ix2 o k))

/-- The result: each entry less its row's mean over the 256 outputs (the divisor is the f32 word of 256). -/
def centred (x : SRows.Idx → EReal) (w : SWeights.Idx → EReal) : SRows.Idx → EReal := fun i =>
  lin x w (i 0) (i 1) - Ideal.div (∑ o : Fin 256, lin x w (i 0) o) (Ideal.ofBits .f32 0x43800000#32)

end Cert.GatedLinear

end
-- ==== Proof.BlockValue.lean ====
/-
  What the kernel body stores for one block of 4096 rows, entry by entry.

  The body gates the whole 256 × 256 weight block, transposes the gated matrix so that the contraction runs over the
  transposed matrix's rows, multiplies the 4096 × 256 block of `x` by it into a zero accumulator, sums each product row
  over its 256 lanes, divides that sum by the word of 256, and subtracts the quotient from every entry of the row.
  Read at the entry `(r, o)`: the product is `∑ k, xb[r,k] · gate wb[o,k]` (the transpose read back), and the stored value is
  that less the row's mean.
-/
import proofs.«106123_j66194035966310_1_alg».proof.Proof.Gen.KernelIdeal.Skeleton
import proofs.«106123_j66194035966310_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen
open Idealize.ShloMosaic Idealize.ShloMosaic.ValueIdx Cert.GatedLinear

/-! ## The product's operand indices -/

theorem lhs_axis0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_axis1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_axis0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_axis1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into the zero accumulator, at `(r, o)`: the sum over `k` of the left operand's row `r` against the
    right operand's column `o`. -/
theorem product_entry (xb : FVec Ideal S4096x256 .f32) (wt : FVec Ideal S256x256 .f32) (r : Fin 4096) (o : Fin 256) :
    matmul dot_S4096x256_S256x256_S4096x256_1_0_0_1_n_n none xb wt (constant S4096x256 .f32 0x00000000#32) (ix2 r o)
      = ∑ k : Fin 256, xb (ix2 r k) * wt (ix2 k o) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r o) ((ValueIdx.contrEquiv1 dot_S4096x256_S256x256_S4096x256_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S4096x256_S256x256_S4096x256_1_0_0_1_n_n.rhsIdx (ix2 r o) ((ValueIdx.contrEquiv1 dot_S4096x256_S256x256_S4096x256_1_0_0_1_n_n 256 rfl rfl).symm k) = ix2 k o := funext fun a => Fin.ext (by
    match a with
    | ⟨0, _⟩ => exact (rhs_axis0 _ _).trans hk
    | ⟨1, _⟩ => exact rhs_axis1 _ _)
  rw [el, er]

/-! ## The gated weights, transposed -/

/-- The gated weight block as the body builds it: the comparison bit widened to a word, converted signed, transposed. -/
def gatedT (wb : FVec Ideal S256x256 .f32) : FVec Ideal S256x256 .f32 :=
  transpose S256x256 [1, 0]
    (sitofp .f32 (extui 32 (cmpf .ogt wb (broadcast S256x256 (Scalar.ofBits (F := Ideal) .f32 0x3F4CCCCD#32))) natLt_1_32))
    transposes_S256x256_p1_0_S256x256

/-- Its entry `(k, o)` is the gate of the weight at `(o, k)`. -/
theorem gatedT_entry (wb : FVec Ideal S256x256 .f32) (k o : Fin 256) : gatedT wb (ix2 k o) = gate (wb (ix2 o k)) := by
  unfold gatedT
  refine (transpose_ix2_apply _ transposes_S256x256_p1_0_S256x256 k o).trans ?_
  exact gate_signed _

/-! ## The block's linear map and its rows' means -/

/-- Row `r` of the block against the gated row `o` of the weights. -/
def blockLin (xb : S4096x256.Idx → EReal) (wb : S256x256.Idx → EReal) (r : Fin 4096) (o : Fin 256) : EReal :=
  ∑ k : Fin 256, xb (ix2 r k) * gate (wb (ix2 o k))

/-- The body's product. -/
def product (wb : FVec Ideal S256x256 .f32) (xb : FVec Ideal S4096x256 .f32) : FVec Ideal S4096x256 .f32 :=
  matmul dot_S4096x256_S256x256_S4096x256_1_0_0_1_n_n none xb (gatedT wb) (constant S4096x256 .f32 0x00000000#32)

theorem product_is_blockLin (wb : FVec Ideal S256x256 .f32) (xb : FVec Ideal S4096x256 .f32) (r : Fin 4096) (o : Fin 256) :
    product wb xb (ix2 r o) = blockLin xb wb r o := by
  unfold product blockLin
  refine (product_entry xb (gatedT wb) r o).trans ?_
  refine Finset.sum_congr rfl fun k _ => ?_
  exact congrArg (xb (ix2 r k) * ·) (gatedT_entry wb k o)

/-- A lane sum over the second axis, at row `r`: the sum of the row's 256 entries. -/
theorem row_sum (y : FVec Ideal S4096x256 .f32) (hφ : FKind.Formats .f32)
    (hacc : (0x00000000#32 : BitVec FTy.f32.bits) = FKind.add.neutral .f32 hφ) (r : Fin 4096) :
    multiReduction .add [1] S4096 y 0x00000000#32 reduces_S4096x256_S4096 hφ hacc (ix1 r) = ∑ o : Fin 256, y (ix2 r o) := by
  refine (Ideal.multiReduction_add_single y 0x00000000#32 reduces_S4096x256_S4096 hφ hacc (ix1 r)).trans ?_
  refine Finset.sum_congr rfl fun o _ => ?_
  exact congrArg y (funext fun a => Fin.ext (by match a with | ⟨0, _⟩ => rfl | ⟨1, _⟩ => rfl))

/-- Subtracting from a 4096 × 256 value its rows' means (the lane sum kept as a column, divided by the word of 256,
    broadcast back along the row), at `(r, o)`. -/
theorem centre_entry (y : FVec Ideal S4096x256 .f32) (r : Fin 4096) (o : Fin 256) :
    subf y (broadcastTo S4096x256
        (divf (shapeCast S4096x1 (multiReduction .add [1] S4096 y 0x00000000#32 reduces_S4096x256_S4096 (.inl rfl) rfl) shapeCasts_S4096_S4096x1)
          (broadcast S4096x1 (Scalar.ofBits (F := Ideal) .f32 0x43800000#32)))
        broadcasts_S4096x1_S4096x256) (ix2 r o)
      = y (ix2 r o) - Ideal.div (∑ o' : Fin 256, y (ix2 r o')) (Ideal.ofBits .f32 0x43800000#32) := by
  refine (subf_apply _ _ _).trans ?_
  refine congrArg (y (ix2 r o) - ·) ?_
  refine (broadcastTo_apply _ broadcasts_S4096x1_S4096x256 (ix2 r o) (ix2 r (0 : Fin 1)) (fun a => ?_)).trans ?_
  · match a with
    | ⟨0, _⟩ => show r.val = if (4096 : Nat) = 1 then 0 else r.val; rw [if_neg (by decide)]
    | ⟨1, _⟩ => show 0 = if (1 : Nat) = 1 then 0 else o.val; rw [if_pos rfl]
  refine (divf_apply _ _ _).trans ?_
  refine congrArg₂ Ideal.div ?_ rfl
  refine (shapeCast_apply _ shapeCasts_S4096_S4096x1 (ix2 r (0 : Fin 1)) (ix1 r) ?_).trans ?_
  · rw [Shape.rowMajor_val_one, Shape.rowMajor_val_two]
    show r.val = r.val * 1 + 0
    omega
  exact row_sum y _ _ r

/-- The stored value is the product with its rows' means subtracted. -/
theorem payload_eq (wb : FVec Ideal S256x256 .f32) (xb : FVec Ideal S4096x256 .f32) :
    k0_pay1 (F := Ideal) wb xb
      = subf (product wb xb) (broadcastTo S4096x256
        (divf (shapeCast S4096x1 (multiReduction .add [1] S4096 (product wb xb) 0x00000000#32 reduces_S4096x256_S4096 (.inl rfl) rfl) shapeCasts_S4096_S4096x1)
          (broadcast S4096x1 (Scalar.ofBits (F := Ideal) .f32 0x43800000#32)))
        broadcasts_S4096x1_S4096x256) := rfl

/-- THE BLOCK'S VALUE at `(r, o)`: the block's linear map there less the mean of its row. -/
theorem payload_entry (wb : FVec Ideal S256x256 .f32) (xb : FVec Ideal S4096x256 .f32) (r : Fin 4096) (o : Fin 256) :
    k0_pay1 (F := Ideal) wb xb (ix2 r o)
      = blockLin xb wb r o - Ideal.div (∑ o' : Fin 256, blockLin xb wb r o') (Ideal.ofBits .f32 0x43800000#32) := by
  rw [payload_eq]
  refine (centre_entry (product wb xb) r o).trans ?_
  rw [product_is_blockLin]
  refine congrArg (blockLin xb wb r o - Ideal.div · (Ideal.ofBits .f32 0x43800000#32)) ?_
  exact Finset.sum_congr rfl fun o' _ => product_is_blockLin wb xb r o'

/-- The same against whole arrays: when the block holds rows `base … base + 4095` of `xarr` and the weight block is
    `warr`, the stored entry at `j` is the centred gated linear map of the arrays at the array index `i` over `j`. -/
theorem payload_of_arrays (xarr : SRows.Idx → EReal) (warr : SWeights.Idx → EReal)
    (xb : FVec Ideal S4096x256 .f32) (wb : FVec Ideal S256x256 .f32) (base : Nat)
    (hx : ∀ (y : S4096x256.Idx) (i : SRows.Idx), (i 0).val = base + (y 0).val → (i 1).val = (y 1).val → xb y = xarr i)
    (hw : ∀ y : S256x256.Idx, wb y = warr y)
    (j : S4096x256.Idx) (i : SRows.Idx) (hi0 : (i 0).val = base + (j 0).val) (hi1 : (i 1).val = (j 1).val) :
    k0_pay1 (F := Ideal) wb xb j = centred xarr warr i := by
  obtain ⟨r, o, rfl⟩ : ∃ (r : Fin 4096) (o : Fin 256), j = ix2 r o := ⟨j 0, j 1, eq_ix2 j⟩
  have hlin : ∀ o' : Fin 256, blockLin xb wb r o' = lin xarr warr (i 0) o' := fun o' => by
    unfold blockLin lin
    refine Finset.sum_congr rfl fun k _ => ?_
    rw [hx (ix2 r k) (ix2 (i 0) k) hi0 rfl, hw (ix2 o' k)]
  have ho : (i 1) = o := Fin.ext hi1
  rw [payload_entry]
  unfold centred
  rw [ho, hlin o]
  refine congrArg (lin xarr warr (i 0) o - Ideal.div · (Ideal.ofBits .f32 0x43800000#32)) ?_
  exact Finset.sum_congr rfl fun o' _ => hlin o'

end Cert.KernelIdeal.BlockValue

end
-- ==== Proof.ArrayValue.lean ====
/-
  From blocks to the whole array: after the run the kernel's result array is the centred gated linear map of its two
  argument arrays.

  Grid point `t` stages rows `4096·t … 4096·t + 4095` of `x` and the whole weight matrix, and writes back the same rows of
  the result. What it writes is the body's stored value of those two blocks, which at every entry is the centred gated
  linear map of the arrays at that entry's array index (each row depends on its own row of `x` only, so a block of rows
  is a restriction of the whole-array function). The 32 blocks of 4096 rows tile the 131072 rows: row `ρ` lies in block
  `ρ / 4096`.
-/
import proofs.«106123_j66194035966310_1_alg».proof.Proof.Gen.KernelIdeal.Value
import proofs.«106123_j66194035966310_1_alg».proof.Proof.BlockValue

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.GatedLinear

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 32 grid points: the row blocks of `x` and of the result move with the point, the
    weight block stays, and no window moves along the columns. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the centred gated linear map of the argument arrays. -/
theorem flushed_eq (c : Dev nD) (t : Fin cfg0.N) :
    (dats m 0 c).flushed 2 t
      = ((cfg0.win 2).blk t).view.read (Elt Ideal) (centred (V m c main_arg0) (V m c main_arg1)) := by
  rw [Value.flushed2]
  unfold out0_2
  rw [View.canon_unit_zero offsets_zero]
  simp only [View.ld_unit_zero (S := S4096x256) offsets_zero, View.ld_unit_zero (S := S256x256) offsets_zero]
  obtain ⟨e0, e1, e2, e3, e4, e5⟩ := block_indices t
  funext j
  show k0_pay1 (F := Ideal) (iblk m c 1 t) (iblk m c 0 t) j
    = centred (V m c main_arg0) (V m c main_arg1) (((cfg0.win 2).blk t).view.emb j)
  refine BlockValue.payload_of_arrays (V m c main_arg0) (V m c main_arg1) (iblk m c 0 t) (iblk m c 1 t) (t.val * 4096)
    (fun y i h0 h1 => ?_) (fun y => ?_) j (((cfg0.win 2).blk t).view.emb j) ?_ ?_
  · show V m c main_arg0 (((cfg0.win 0).blk t).view.emb y) = V m c main_arg0 i
    refine congrArg (V m c main_arg0) (funext fun a => Fin.ext ?_)
    match a with
    | ⟨0, _⟩ => show win0_0.index t (0 : Fin 2) * 4096 + 1 * (y 0).val = (i 0).val; omega
    | ⟨1, _⟩ => show win0_0.index t (1 : Fin 2) * 256 + 1 * (y 1).val = (i 1).val; omega
  · show V m c main_arg1 (((cfg0.win 1).blk t).view.emb y) = V m c main_arg1 y
    refine congrArg (V m c main_arg1) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · show win0_2.index t (0 : Fin 2) * 4096 + 1 * (j 0).val = t.val * 4096 + (j 0).val; omega
  · show win0_2.index t (1 : Fin 2) * 256 + 1 * (j 1).val = (j 1).val; omega

/-- An index of the result array is in point `t`'s block iff each coordinate is in the block's range on its axis. -/
theorem mem_block (t : Fin cfg0.N) (i : S131072x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v0).slice (win0_2.rect t)).set ↔ _
  rw [View.set_slice_whole, Rect.mem_set_unit]
  exact Iff.rfl

/-- Every index of the result array is in the block of the point that its row's quotient by 4096 names. -/
theorem covered (i : S131072x256.Idx) :
    ∃ t : Fin cfg0.N, (cfg0.win 2).flush t = true ∧ i ∈ ((cfg0.win 2).blk t).view.set := by
  have hi0 : (i 0).val < 131072 := (i 0).isLt
  have hi1 : (i 1).val < 256 := (i 1).isLt
  have hN : grid0.N = 32 := N_0
  have hlt : (i 0).val / 4096 < cfg0.N := by show (i 0).val / 4096 < grid0.N; omega
  refine ⟨⟨(i 0).val / 4096, hlt⟩, flush0_2 _, ?_⟩
  rw [mem_block]
  obtain ⟨e0, e1, e2, e3, e4, e5⟩ := block_indices ⟨(i 0).val / 4096, hlt⟩
  have e4' : win0_2.index ⟨(i 0).val / 4096, hlt⟩ (0 : Fin 2) = (i 0).val / 4096 := e4
  intro a
  match a with
  | ⟨0, _⟩ =>
    show win0_2.index ⟨(i 0).val / 4096, hlt⟩ (0 : Fin 2) * 4096 ≤ (i 0).val ∧ (i 0).val < win0_2.index ⟨(i 0).val / 4096, hlt⟩ (0 : Fin 2) * 4096 + 4096
    omega
  | ⟨1, _⟩ =>
    show win0_2.index ⟨(i 0).val / 4096, hlt⟩ (1 : Fin 2) * 256 ≤ (i 1).val ∧ (i 1).val < win0_2.index ⟨(i 0).val / 4096, hlt⟩ (1 : Fin 2) * 256 + 256
    omega

/-- THE RESULT ARRAY after the run: the centred gated linear map of the argument arrays as launched. -/
theorem final (c : Dev nD) :
    (dats m 0 c).arrAt 2 cfg0.N
      = centred (m ((c : Thread nD τ).loc main_arg0)) (m ((c : Thread nD τ).loc main_arg1)) :=
  (dats m 0 c).arrAt_eq_of_cover 2 (centred (V m c main_arg0) (V m c main_arg1)) (fun t _ => flushed_eq m c t) covered

/-- The run, read: the result at that function of the arguments, the arguments unchanged. -/
theorem run : θ_run defs (onTc (τ := τ) (main (F := Ideal))) ⟨m, fun _ => 0, ρ⟩ fun r => ∀ c : Dev nD,
      r.2.mem ((c : Thread nD τ).loc main_v0) = centred (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference, read one operation at a time, is the gated linear map with each row's mean subtracted.

  Its compare-and-convert of a weight is the gate; its `dot_general`, contracting the second axis of both operands, is
  `lin` at the entry's row and column; the row sum starts from the zero word, which adds nothing; the quotient by the
  word of 256 is broadcast back along the row and subtracted.
-/
import proofs.«106123_j66194035966310_1_alg».proof.Proof.Gen.ReferenceIdeal.Read
import proofs.«106123_j66194035966310_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.GatedLinear

/-- The converted comparison of a weight against the broadcast threshold is that weight's gate. -/
theorem gated_weight (w : S256x256.Idx → EReal) (i : S256x256.Idx) :
    val_main_v2 (F := Ideal) w i = gate (w i) := by
  rw [val_main_v2_apply, val_main_v1_apply, val_main_v0_apply, val_main_cst_apply]
  rfl

/-- The contraction over the second axis of both operands is `lin` at the entry's row and column. -/
theorem linear_entry (x : S131072x256.Idx → EReal) (w : S256x256.Idx → EReal) (i : S131072x256.Idx) :
    val_main_v3 (F := Ideal) x w i = lin x w (i 0) (i 1) := by
  rw [val_main_v3_apply]
  unfold lin
  refine Finset.sum_congr rfl fun k _ => ?_
  rw [gated_weight]
  have el : lidx_main_v3 i k = ix2 (i 0) k :=
    funext fun a => Fin.ext (by match a with | ⟨0, _⟩ => rfl | ⟨1, _⟩ => rfl)
  have er : ridx_main_v3 i k = ix2 (i 1) k :=
    funext fun a => Fin.ext (by match a with | ⟨0, _⟩ => rfl | ⟨1, _⟩ => rfl)
  rw [el, er]
  rfl

/-- The reference's result is the centred gated linear map of its two arguments. -/
theorem result_eq (x : S131072x256.Idx → EReal) (w : S256x256.Idx → EReal) :
    val_main_v9 (F := Ideal) x w = centred x w := by
  funext i
  rw [val_main_v9_apply, val_main_v8_apply, val_main_v7_apply, val_main_v6_apply, val_main_cst_1_apply,
    val_main_v5_apply, val_main_v4_apply, val_main_cst_0_apply]
  simp only [linear_entry, Ideal.subf_def, Ideal.hostDivf_def, Ideal.ofBits_def, Ideal.ofBits_zero_f32, zero_add]
  rfl

end Cert.ReferenceIdeal.RefValue

end
-- ==== Proof.lean ====
/- The proof of `Cert.Claim`: a gated linear layer with its rows' means subtracted, tiled over blocks of 4096 rows, against
   the same map written as whole-array operations.

   Both idealized programs end with the result array at `Cert.GatedLinear.centred` of the two arguments (Proof/Spec.lean):
   entry `(b, o)` is `∑ k, x[b,k] · gate w[o,k]` less the mean over `o'` of the same sums, the gate being 1 where a weight
   exceeds the f32 word nearest 0.8 and 0 elsewhere. The kernel's side is Proof/BlockValue.lean (the value stored for one
   block, entry by entry) and Proof/ArrayValue.lean (the 32 blocks tile the array; each is a restriction of the one
   whole-array function because a row of the result depends on its own row of `x` only); the reference's side is
   Proof/RefValue.lean. The two sums are literally the same sums, so no law of the extended reals beyond `0 + a = a` is
   used and the finiteness of the inputs is never opened. The three frames are the generated frame runs; the idealization
   rewrote nothing, so `preserves` is trivial. -/
import proofs.«106123_j66194035966310_1_alg».proof.Defs
import proofs.«106123_j66194035966310_1_alg».proof.Proof.Gen.Kernel
import proofs.«106123_j66194035966310_1_alg».proof.Proof.Gen.Kernel.Skeleton
import proofs.«106123_j66194035966310_1_alg».proof.Proof.Gen.Kernel.Launch
import proofs.«106123_j66194035966310_1_alg».proof.Proof.Gen.Kernel.Points
import proofs.«106123_j66194035966310_1_alg».proof.Proof.Gen.Kernel.Frame
import proofs.«106123_j66194035966310_1_alg».proof.Proof.Gen.KernelIdeal
import proofs.«106123_j66194035966310_1_alg».proof.Proof.Gen.KernelIdeal.Skeleton
import proofs.«106123_j66194035966310_1_alg».proof.Proof.Gen.KernelIdeal.Launch
import proofs.«106123_j66194035966310_1_alg».proof.Proof.Gen.KernelIdeal.Points
import proofs.«106123_j66194035966310_1_alg».proof.Proof.Gen.KernelIdeal.Frame
import proofs.«106123_j66194035966310_1_alg».proof.Proof.Gen.ReferenceIdeal
import proofs.«106123_j66194035966310_1_alg».proof.Proof.Gen.KernelIdeal.Value
import proofs.«106123_j66194035966310_1_alg».proof.Proof.Gen.ReferenceIdeal.Run
import proofs.«106123_j66194035966310_1_alg».proof.Proof.Gen.ReferenceIdeal.Read
import proofs.«106123_j66194035966310_1_alg».proof.Proof.Gen.Pre_finite_inputs
import proofs.«106123_j66194035966310_1_alg».proof.Proof.ArrayValue
import proofs.«106123_j66194035966310_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the centred gated linear map of arguments that agree. -/
theorem algebraic : Cert.algebraic_KernelIdeal_ReferenceIdeal := by
  intro m ρ m' ρ' _ hagree
  refine ⟨fun c => Cert.GatedLinear.centred
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
